-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16x128x128 : Shape := ⟨5, ![8, 64, 16, 128, 128]⟩
abbrev S64 : Shape := ⟨1, ![64]⟩
abbrev S_ : Shape := ⟨0, ![]⟩

class Facts : Prop where
  bcast_S_S8x64x16x128x128 : S_.BroadcastsInDim S8x64x16x128x128 (![] : Fin 0 → Fin S8x64x16x128x128.rank)
  reducesTo_S8x64x16x128x128_S_d0_1_2_3_4 : S8x64x16x128x128.ReducesTo [0, 1, 2, 3, 4] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8x64x16x128x128 .f32) (main_arg1 : FVec F S64 .f32) : IVec S_ 1 :=
  let main_v0 : FVec F S8x64x16x128x128 .f32 := Host.absf main_arg0
  let main_cst : FVec F S_ .f32 := constant S_ .f32 0x7F800000#32
  let main_v1 : FVec F S8x64x16x128x128 .f32 := broadcastInDim S8x64x16x128x128 ![] bcast_S_S8x64x16x128x128 main_cst
  let main_v2 : IVec S8x64x16x128x128 1 := cmpf .olt main_v0 main_v1
  let main_c : IVec S_ 1 := constantI S_ 1 1#1
  let main_v3 : IVec S_ 1 := (fun x v => Host.reduce IntOp.andi x v reducesTo_S8x64x16x128x128_S_d0_1_2_3_4 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S8x64x16x128x128 : Shape := ⟨5, ![8, 64, 16, 128, 128]⟩
abbrev S64 : Shape := ⟨1, ![64]⟩
abbrev S8x64x128x128 : Shape := ⟨4, ![8, 64, 128, 128]⟩
abbrev S1x64x16x16x128 : Shape := ⟨5, ![1, 64, 16, 16, 128]⟩
abbrev S1x64x16x128 : Shape := ⟨4, ![1, 64, 16, 128]⟩
abbrev S64x16x16x128 : Shape := ⟨4, ![64, 16, 16, 128]⟩
abbrev S64x16x128 : Shape := ⟨3, ![64, 16, 128]⟩
abbrev S64x1x1 : Shape := ⟨3, ![64, 1, 1]⟩
abbrev S16x128 : Shape := ⟨2, ![16, 128]⟩
abbrev S1x16x128 : Shape := ⟨3, ![1, 16, 128]⟩

abbrev nBuf : Space → Nat
  | .hbm => 3
  | .vmem => 5
  | .smem => 0
  | _ => 0

abbrev bufTy : (tb : Table) → Fin (tcTables nBuf tb) → BufTy
  | .hbm, ⟨0, _⟩ => ⟨S8x64x16x128x128, .f32⟩
  | .hbm, ⟨1, _⟩ => ⟨S64, .f32⟩
  | .hbm, ⟨2, _⟩ => ⟨S8x64x128x128, .f32⟩
  | .local _ .vmem, ⟨0, _⟩ => ⟨S1x64x16x16x128, .f32⟩
  | .local _ .vmem, ⟨1, _⟩ => ⟨S1x64x16x16x128, .f32⟩
  | .local _ .vmem, ⟨2, _⟩ => ⟨S64, .f32⟩
  | .local _ .vmem, ⟨3, _⟩ => ⟨S1x64x16x128, .f32⟩
  | .local _ .vmem, ⟨4, _⟩ => ⟨S1x64x16x128, .f32⟩
  | _, _ => ⟨S8x64x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x16x16x128_S1x64x16x16x128_0_0_0_0_0 : ∀ a, (![0, 0, 0, 0, 0] : Fin 5 → Nat) a + S1x64x16x16x128.size a ≤ S1x64x16x16x128.size a
  h_S1x64x16x16x128 : 0 < S1x64x16x16x128.numel
  shapeCasts_S1x64x16x16x128_S64x16x16x128 : S1x64x16x16x128.ShapeCasts S64x16x16x128
  reduces_S64x16x16x128_S64x16x128 : S64x16x16x128.Reduces [1] S64x16x128
  inb_S64_S64_0 : ∀ a, (![0] : Fin 1 → Nat) a + S64.size a ≤ S64.size a
  h_S64 : 0 < S64.numel
  shapeCasts_S64_S64x1x1 : S64.ShapeCasts S64x1x1
  broadcasts_S64x1x1_S64x16x128 : S64x1x1.Broadcasts S64x16x128
  reduces_S64x16x128_S16x128 : S64x16x128.Reduces [0] S16x128
  shapeCasts_S16x128_S1x16x128 : S16x128.ShapeCasts S1x16x128
  broadcasts_S1x16x128_S64x16x128 : S1x16x128.Broadcasts S64x16x128
  inb_S1x64x16x128_S1x64x16x128_0_0_0_0 : ∀ a, (![0, 0, 0, 0] : Fin 4 → Nat) a + S1x64x16x128.size a ≤ S1x64x16x128.size a
  h_S1x64x16x128 : 0 < S1x64x16x128.numel
  shapeCasts_S1x64x16x128_S64x16x128 : S1x64x16x128.ShapeCasts S64x16x128
  shapeCasts_S64x16x128_S1x64x16x128 : S64x16x128.ShapeCasts S1x64x16x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16x16x128.size a ≤ S8x64x16x128x128.size a
  hwx0_0 : ∀ i : grid0.Coords, EltTy.bits .f32 = 32 ∨ (Rect.block (s := S8x64x16x128x128) S1x64x16x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x16x128.size a ≤ S8x64x128x128.size a
  hwx0_2 : ∀ i : grid0.Coords, EltTy.bits .f32 = 32 ∨ (Rect.block (s := S8x64x128x128) S1x64x16x128.size (cc0_transform_2 i) (hinb0_2 i)).WholeWords (EltTy.packing .f32)

variable [Facts₀]

abbrev win0_0 : Pipeline.Window sig grid0 :=
  Pipeline.Window.ofSpec (Memref.whole main_arg0) S1x64x16x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x16x128x128 : Shape := ⟨5, ![8, 64, 16, 128, 128]⟩
abbrev S64 : Shape := ⟨1, ![64]⟩
abbrev S_ : Shape := ⟨0, ![]⟩
abbrev S8x64x128x128 : Shape := ⟨4, ![8, 64, 128, 128]⟩
abbrev S1x64x1x1 : Shape := ⟨4, ![1, 64, 1, 1]⟩
abbrev S8x128x128 : Shape := ⟨3, ![8, 128, 128]⟩
abbrev S8x1x128x128 : Shape := ⟨4, ![8, 1, 128, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x64x16x128x128, .f32⟩
  | .hbm, ⟨1, _⟩ => ⟨S64, .f32⟩
  | .hbm, ⟨2, _⟩ => ⟨S_, .f32⟩
  | .hbm, ⟨3, _⟩ => ⟨S8x64x128x128, .f32⟩
  | .hbm, ⟨4, _⟩ => ⟨S_, .f32⟩
  | .hbm, ⟨5, _⟩ => ⟨S8x64x128x128, .f32⟩
  | .hbm, ⟨6, _⟩ => ⟨S8x64x128x128, .f32⟩
  | .hbm, ⟨7, _⟩ => ⟨S1x64x1x1, .f32⟩
  | .hbm, ⟨8, _⟩ => ⟨S8x64x128x128, .f32⟩
  | .hbm, ⟨9, _⟩ => ⟨S8x64x128x128, .f32⟩
  | .hbm, ⟨10, _⟩ => ⟨S_, .f32⟩
  | .hbm, ⟨11, _⟩ => ⟨S8x128x128, .f32⟩
  | .hbm, ⟨12, _⟩ => ⟨S_, .f32⟩
  | .hbm, ⟨13, _⟩ => ⟨S8x128x128, .f32⟩
  | .hbm, ⟨14, _⟩ => ⟨S8x128x128, .f32⟩
  | .hbm, ⟨15, _⟩ => ⟨S8x1x128x128, .f32⟩
  | .hbm, ⟨16, _⟩ => ⟨S8x64x128x128, .f32⟩
  | .hbm, ⟨17, _⟩ => ⟨S8x64x128x128, .f32⟩
  | .hbm, ⟨18, _⟩ => ⟨S8x64x128x128, .f32⟩
  | .hbm, ⟨19, _⟩ => ⟨S_, .f32⟩
  | .hbm, ⟨20, _⟩ => ⟨S8x128x128, .f32⟩
  | .hbm, ⟨21, _⟩ => ⟨S8x1x128x128, .f32⟩
  | .hbm, ⟨22, _⟩ => ⟨S8x64x128x128, .f32⟩
  | .hbm, ⟨23, _⟩ => ⟨S8x64x128x128, .f32⟩
  | .hbm, ⟨24, _⟩ => ⟨S8x64x128x128, .f32⟩
  | .hbm, ⟨25, _⟩ => ⟨S_, .f32⟩
  | .hbm, ⟨26, _⟩ => ⟨S8x64x128x128, .f32⟩
  | .hbm, ⟨27, _⟩ => ⟨S8x64x128x128, .f32⟩
  | _, _ => ⟨S8x64x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x64x16x128x128_S8x64x128x128_d2 : S8x64x16x128x128.ReducesTo [2] S8x64x128x128
  h_S_ : 0 < S_.numel
  bcast_S_S8x64x128x128 : S_.BroadcastsInDim S8x64x128x128 (![] : Fin 0 → Fin S8x64x128x128.rank)
  bcast_S64_S1x64x1x1_1 : S64.BroadcastsInDim S1x64x1x1 (![1] : Fin 1 → Fin S1x64x1x1.rank)
  bcast_S1x64x1x1_S8x64x128x128_0_1_2_3 : S1x64x1x1.BroadcastsInDim S8x64x128x128 (![0, 1, 2, 3] : Fin 4 → Fin S8x64x128x128.rank)
  reducesTo_S8x64x128x128_S8x128x128_d1 : S8x64x128x128.ReducesTo [1] S8x128x128
  bcast_S_S8x128x128 : S_.BroadcastsInDim S8x128x128 (![] : Fin 0 → Fin S8x128x128.rank)
  bcast_S8x128x128_S8x1x128x128_0_2_3 : S8x128x128.BroadcastsInDim S8x1x128x128 (![0, 2, 3] : Fin 3 → Fin S8x1x128x128.rank)
  bcast_S8x1x128x128_S8x64x128x128_0_1_2_3 : S8x1x128x128.BroadcastsInDim S8x64x128x128 (![0, 1, 2, 3] : Fin 4 → Fin S8x64x128x128.rank)

variable [Facts₀]

class Facts : Prop extends Facts₀ where

variable [Facts]
-- ==== Proof.ChannelSoftmax.lean ====
/-
  What both programs compute, as ONE function of the two argument arrays.

  For an input x[n, c, d, h, w] (8 × 64 × 16 × 128 × 128) and a bias b[c] (64) the result at (n, c, h, w) is

      2 · tanh ( e c / Σ c', e c' ),     e c = exp (ℓ c − M),     ℓ c = (Σ d, x[n, c, d, h, w]) / 16 + b[c],
      M = max (−∞, max over c' of ℓ c')   (the maximum taken as a fold from −∞):

  the softmax over the 64 channels of the depth mean plus bias, at each pixel (n, h, w), then tanh and a doubling.
  Everything past the logits ℓ is a function of the pixel's 64 logits and of the channel alone: `perPixel`. Both
  programs share the three float literals (16, −∞, 2); they are kept as their patterns and never evaluated.
-/
import Idealize.ShloMosaic.PureOps.Ideal
import Idealize.ShloMosaic.PureOps.Ideal.Laws
import Idealize.ShloMosaic.Lib.ValueIdx

noncomputable section

namespace Cert.ChannelSoftmax

open Idealize.ShloMosaic Idealize.ShloMosaic.ValueIdx

/-- The divisor of the depth mean, the starting value of the channel maximum, and the final scale. -/
abbrev sixteen : EReal := Ideal.ofBits .f32 0x41800000#32
abbrev negInf : EReal := Ideal.ofBits .f32 0xFF800000#32
abbrev two : EReal := Ideal.ofBits .f32 0x40000000#32

/-- The channel maximum of a pixel's logits: the fold of `max` from −∞ over the 64 channels, once more against −∞. -/
def top (L : Fin 64 → EReal) : EReal :=
  max negInf ((Finset.univ : Finset (Fin 64)).fold max negInf L)

/-- The unnormalised softmax weight of channel `c`. -/
def weight (L : Fin 64 → EReal) (c : Fin 64) : EReal := Ideal.exp (L c - top L)

/-- The result at channel `c` of a pixel whose logits are `L`. -/
def perPixel (L : Fin 64 → EReal) (c : Fin 64) : EReal :=
  Ideal.tanh (Ideal.div (weight L c) (∑ c' : Fin 64, weight L c')) * two

/-- The logit of channel `c` at pixel (n, h, w): the depth sum over 16, plus the channel's bias. Stated for any batch
    and spatial extents, so that it reads a block [1, 64, 16, 16, 128] of the input as it reads the whole input. -/
def logit {N H W : Nat} (x : (⟨5, ![N, 64, 16, H, W]⟩ : Shape).Idx → EReal) (b : (⟨1, ![64]⟩ : Shape).Idx → EReal)
    (n : Fin N) (h : Fin H) (w : Fin W) (c : Fin 64) : EReal :=
  Ideal.div (∑ d : Fin 16, x (ix5 n c d h w)) sixteen + b (ix1 c)

/-- Logits depend on the input only through the depth column over the pixel. -/
theorem logit_congr {N H W N' H' W' : Nat} (x : (⟨5, ![N, 64, 16, H, W]⟩ : Shape).Idx → EReal)
    (x' : (⟨5, ![N', 64, 16, H', W']⟩ : Shape).Idx → EReal) (b : (⟨1, ![64]⟩ : Shape).Idx → EReal)
    (n : Fin N) (h : Fin H) (w : Fin W) (n' : Fin N') (h' : Fin H') (w' : Fin W')
    (hx : ∀ (c : Fin 64) (d : Fin 16), x (ix5 n c d h w) = x' (ix5 n' c d h' w')) :
    logit x b n h w = logit x' b n' h' w' := by
  funext c
  unfold logit
  rw [Finset.sum_congr rfl fun d _ => hx c d]

/-- The whole result array. -/
def G (x : (⟨5, ![8, 64, 16, 128, 128]⟩ : Shape).Idx → EReal) (b : (⟨1, ![64]⟩ : Shape).Idx → EReal) :
    (⟨4, ![8, 64, 128, 128]⟩ : Shape).Idx → EReal :=
  fun i => perPixel (logit x b (i 0) (i 2) (i 3)) (i 1)

theorem G_apply (x : (⟨5, ![8, 64, 16, 128, 128]⟩ : Shape).Idx → EReal) (b : (⟨1, ![64]⟩ : Shape).Idx → EReal)
    (n : Fin 8) (c : Fin 64) (h w : Fin 128) : G x b (ix4 n c h w) = perPixel (logit x b n h w) c := rfl

end Cert.ChannelSoftmax

end
-- ==== Proof.ReferenceValue.lean ====
/-
  The reference's result is `G` of its two arguments.

  The reference's run is read one operation at a time: the depth sum and its quotient by 16 plus the broadcast bias are
  the logits; the maximum over the channel axis (a fold of `max` from −∞ over that axis's 64 coordinates) once more against
  −∞ is the pixel's top; the exponential of the difference is the weight; its sum over the channel axis is the
  normaliser; the quotient, its tanh and the doubling are `perPixel`. The only algebra is `0 + s = s` for the two sums'
  zero starting values.
-/
import proofs.«159681_j25056839205169_1_alg».proof.Proof.Gen.ReferenceIdeal.Read
import proofs.«159681_j25056839205169_1_alg».proof.Proof.ChannelSoftmax
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.ChannelSoftmax
open Idealize.ShloMosaic Idealize.ShloMosaic.ValueIdx

variable (x : (⟨S8x64x16x128x128, .f32⟩ : BufTy).Contents (Elt Ideal)) (b : (⟨S64, .f32⟩ : BufTy).Contents (Elt Ideal))

/-! ## The indices the layout operations read at, by coordinates -/

theorem depth_index (n : Fin 8) (c : Fin 64) (h w : Fin 128) (d : Fin 16) :
    idx_main_v0 (ix4 n c h w) d = ix5 n c d h w :=
  funext fun a => Fin.ext (by match a with | ⟨0, _⟩ => rfl | ⟨1, _⟩ => rfl | ⟨2, _⟩ => rfl | ⟨3, _⟩ => rfl | ⟨4, _⟩ => rfl)

theorem bias_index (n : Fin 8) (c : Fin 64) (h w : Fin 128) :
    idx_main_v3 (idx_main_v4 (ix4 n c h w)) = ix1 c :=
  funext fun a => Fin.ext (by match a with | ⟨0, _⟩ => rfl)

theorem pixel_index_top (n : Fin 8) (c : Fin 64) (h w : Fin 128) :
    idx_main_v9 (idx_main_v10 (ix4 n c h w)) = ix3 n h w :=
  funext fun a => Fin.ext (by match a with | ⟨0, _⟩ => rfl | ⟨1, _⟩ => rfl | ⟨2, _⟩ => rfl)

theorem pixel_index_sum (n : Fin 8) (c : Fin 64) (h w : Fin 128) :
    idx_main_v14 (idx_main_v15 (ix4 n c h w)) = ix3 n h w :=
  funext fun a => Fin.ext (by match a with | ⟨0, _⟩ => rfl | ⟨1, _⟩ => rfl | ⟨2, _⟩ => rfl)

theorem channel_index (n : Fin 8) (h w : Fin 128) (c : Fin 64) :
    idx_main_v13 (ix3 n h w) c = ix4 n c h w :=
  funext fun a => Fin.ext (by match a with | ⟨0, _⟩ => rfl | ⟨1, _⟩ => rfl | ⟨2, _⟩ => rfl | ⟨3, _⟩ => rfl)

/-- The pixel (n, h, w) with channel `c` put back on the reduced axis is (n, c, h, w). -/
theorem lift_channel (hr : S8x64x128x128.Reduces [1] S8x128x128) (n : Fin 8) (h w : Fin 128)
    (c : Fin (S8x64x128x128.size 1)) : hr.lift (ix3 n h w) c = ix4 n (⟨c.val, c.isLt⟩ : Fin 64) h w := by
  funext a; apply Fin.ext
  match a with | ⟨0, _⟩ => rfl | ⟨1, _⟩ => rfl | ⟨2, _⟩ => rfl | ⟨3, _⟩ => rfl

/-! ## The stages -/

/-- The sum over depth divided by 16, plus the bias: the logit. -/
theorem logits_eq (n : Fin 8) (c : Fin 64) (h w : Fin 128) :
    val_main_v5 (F := Ideal) x b (ix4 n c h w) = logit x b n h w c := by
  rw [val_main_v5_apply, val_main_v2_apply, val_main_v0_apply, val_main_v1_apply, val_main_cst_0_apply, val_main_cst_apply,
    val_main_v4_apply, val_main_v3_apply, bias_index]
  simp only [depth_index, Ideal.addf_def, Ideal.hostDivf_def, Ideal.ofBits_def, Ideal.ofBits_zero_f32, zero_add]
  rfl

/-- The maximum over the channel axis from −∞, once more against −∞: the pixel's top. -/
theorem top_eq (n : Fin 8) (h w : Fin 128) :
    val_main_v8 (F := Ideal) x b (ix3 n h w) = top (logit x b n h w) := by
  have hr : S8x64x128x128.Reduces [1] S8x128x128 := by decide
  rw [val_main_v8_apply, val_main_v7_apply, val_main_cst_2_apply]
  unfold val_main_v6
  rw [Host.reduce_eq_fold_single FloatOps.maximumf _ _ reducesTo_S8x64x128x128_S8x128x128_d1 hr h_S_]
  have hf : (val_main_v5 (F := Ideal) x b ∘ hr.lift (ix3 n h w)) = fun c : Fin 64 => logit x b n h w c :=
    funext fun c => by
      show val_main_v5 (F := Ideal) x b (hr.lift (ix3 n h w) c) = _
      rw [lift_channel hr n h w c]; exact logits_eq x b n c h w
  rw [hf]
  rfl

/-- The exponential of the logit less the top: the weight. -/
theorem weight_eq (n : Fin 8) (c : Fin 64) (h w : Fin 128) :
    val_main_v12 (F := Ideal) x b (ix4 n c h w) = weight (logit x b n h w) c := by
  rw [val_main_v12_apply, val_main_v11_apply, val_main_v10_apply, val_main_v9_apply, pixel_index_top, top_eq, logits_eq]
  rfl

/-- The sum of the weights over the channel axis: the normaliser. -/
theorem mass_eq (n : Fin 8) (h w : Fin 128) :
    val_main_v13 (F := Ideal) x b (ix3 n h w) = ∑ c : Fin 64, weight (logit x b n h w) c := by
  rw [val_main_v13_apply, val_main_cst_3_apply]
  simp only [Ideal.ofBits_def, Ideal.ofBits_zero_f32, zero_add, channel_index, weight_eq]

/-- The reference's result term is `G`. -/
theorem result_eq : val_main_v19 (F := Ideal) x b = G x b := by
  funext i
  obtain ⟨n, c, h, w, rfl⟩ : ∃ (n : Fin 8) (c : Fin 64) (h w : Fin 128), i = ix4 n c h w := ⟨i 0, i 1, i 2, i 3, eq_ix4 i⟩
  rw [val_main_v19_apply, val_main_v18_apply, val_main_cst_4_apply, val_main_v17_apply, val_main_v16_apply,
    val_main_v15_apply, val_main_v14_apply, pixel_index_sum, mass_eq, weight_eq, G_apply]
  rfl

end Cert.ReferenceIdeal.RefValue

end
-- ==== Proof.KernelBlock.lean ====
/-
  What the kernel body leaves in an output block, as `perPixel` of the block's logits.

  The body loads a block P0 of the input, [1, 64, 16, 16, 128] (all channels and depths of a 16 × 128 tile of pixels), and
  the bias P1. Its stored value at channel c and tile pixel (r, w) is a pointwise expression over three reductions:
  the depth sum at (c, r, w); the maximum over the channel axis, from −∞, of the logits at (r, w); and the sum over the
  channel axis of the exponentials at (r, w). Each reduction over one axis is a sum, or a fold of `max`, over that
  axis's coordinates; the shape casts and broadcasts between them only re-address. So the block at (0, c, r, w) is
  `perPixel` of the 64 logits of tile pixel (r, w), at channel c.
-/
import proofs.«159681_j25056839205169_1_alg».proof.Proof.Gen.KernelIdeal.Value
import proofs.«159681_j25056839205169_1_alg».proof.Proof.ChannelSoftmax
import Idealize.ShloMosaic.Lib.Pipeline.Value
import Idealize.ShloMosaic.PureOps.Ideal.Laws
import Idealize.ShloMosaic.Lib.ValueIdx

noncomputable section

namespace Cert.KernelIdeal.BlockValue

open Cert.KernelIdeal Cert.KernelIdeal.Gen Cert.KernelIdeal.Value Cert.ChannelSoftmax
open Idealize.ShloMosaic Idealize.ShloMosaic.ValueIdx

variable (P0 : Vec Ideal S1x64x16x16x128 .f32) (P1 : Vec Ideal S64 .f32)

/-! ## The body's intermediate vectors, as the printed body spells them -/

/-- The sum over depth of the block, [64, 16, 128]. -/
abbrev depthSum : FVec Ideal S64x16x128 .f32 :=
  multiReduction .add [1] S64x16x128 (shapeCast S64x16x16x128 P0 shapeCasts_S1x64x16x16x128_S64x16x16x128) 0x00000000#32 reduces_S64x16x16x128_S64x16x128 (.inl rfl) rfl

/-- The logits of the tile, [64, 16, 128]: the depth sum over 16 plus the bias broadcast along the tile. -/
abbrev logits : FVec Ideal S64x16x128 .f32 :=
  addf (divf (depthSum P0) (broadcast S64x16x128 (Scalar.ofBits .f32 0x41800000#32)))
    (broadcastTo S64x16x128 (shapeCast S64x1x1 P1 shapeCasts_S64_S64x1x1) broadcasts_S64x1x1_S64x16x128)

/-- The channel maximum of the logits from −∞, [16, 128]. -/
abbrev chanMax : FVec Ideal S16x128 .f32 :=
  multiReduction .maximumf [0] S16x128 (logits P0 P1) 0xFF800000#32 reduces_S64x16x128_S16x128 (.inl rfl) rfl

/-- That maximum, once more against −∞, broadcast back over the channels, [64, 16, 128]. -/
abbrev tops : FVec Ideal S64x16x128 .f32 :=
  broadcastTo S64x16x128 (shapeCast S1x16x128 (maximumf (broadcast S16x128 (Scalar.ofBits .f32 0xFF800000#32)) (chanMax P0 P1)) shapeCasts_S16x128_S1x16x128) broadcasts_S1x16x128_S64x16x128

/-- The sum over the channels of the weights, [16, 128]. -/
abbrev chanSum : FVec Ideal S16x128 .f32 :=
  multiReduction .add [0] S16x128 (exp (subf (logits P0 P1) (tops P0 P1))) 0x00000000#32 reduces_S64x16x128_S16x128 (.inl rfl) rfl

/-! ## Reduced indices with the reduced coordinate put back -/

theorem lift_depth (c : Fin 64) (r : Fin 16) (w : Fin 128) (d : Fin (S64x16x16x128.size 1)) :
    reduces_S64x16x16x128_S64x16x128.lift (ix3 c r w) d = ix4 c (⟨d.val, d.isLt⟩ : Fin 16) r w := by
  funext a; apply Fin.ext
  match a with | ⟨0, _⟩ => rfl | ⟨1, _⟩ => rfl | ⟨2, _⟩ => rfl | ⟨3, _⟩ => rfl

theorem lift_chan (r : Fin 16) (w : Fin 128) (c : Fin (S64x16x128.size 0)) :
    reduces_S64x16x128_S16x128.lift (ix2 r w) c = ix3 (⟨c.val, c.isLt⟩ : Fin 64) r w := by
  funext a; apply Fin.ext
  match a with | ⟨0, _⟩ => rfl | ⟨1, _⟩ => rfl | ⟨2, _⟩ => rfl

/-! ## The vectors read at an index -/

/-- The depth sum at (c, r, w): the sum over d of the block at (0, c, d, r, w). -/
theorem depthSum_apply (c : Fin 64) (r : Fin 16) (w : Fin 128) :
    depthSum P0 (ix3 c r w) = ∑ d : Fin 16, P0 (ix5 (0 : Fin 1) c d r w) := by
  refine (Ideal.multiReduction_add_single (shapeCast S64x16x16x128 P0 shapeCasts_S1x64x16x16x128_S64x16x16x128) 0x00000000#32
    reduces_S64x16x16x128_S64x16x128 (.inl rfl) rfl (ix3 c r w)).trans ?_
  refine Finset.sum_congr rfl fun d _ => ?_
  rw [lift_depth c r w d]
  refine shapeCast_apply _ _ _ (ix5 (0 : Fin 1) c (⟨d.val, d.isLt⟩ : Fin 16) r w) ?_
  rw [Shape.rowMajor_val_five, Shape.rowMajor_val_four]
  show ((((0 : Nat) * 64 + c.val) * 16 + d.val) * 16 + r.val) * 128 + w.val = ((c.val * 16 + d.val) * 16 + r.val) * 128 + w.val
  omega

/-- The logits at (c, r, w). -/
theorem logits_apply (c : Fin 64) (r : Fin 16) (w : Fin 128) :
    logits P0 P1 (ix3 c r w) = logit (N := 1) (H := 16) (W := 128) P0 P1 0 r w c := by
  have hb : (broadcastTo S64x16x128 (shapeCast S64x1x1 P1 shapeCasts_S64_S64x1x1) broadcasts_S64x1x1_S64x16x128) (ix3 c r w) = P1 (ix1 c) := by
    refine (broadcastTo_apply _ _ (ix3 c r w) (ix3 c (0 : Fin 1) (0 : Fin 1)) (fun a => match a with
      | ⟨0, _⟩ => by show c.val = (if (64 : Nat) = 1 then 0 else c.val); rw [if_neg (by decide)]
      | ⟨1, _⟩ => by show 0 = (if (1 : Nat) = 1 then 0 else r.val); rw [if_pos rfl]
      | ⟨2, _⟩ => by show 0 = (if (1 : Nat) = 1 then 0 else w.val); rw [if_pos rfl])).trans ?_
    refine shapeCast_apply _ _ _ (ix1 c) ?_
    rw [Shape.rowMajor_val_one, Shape.rowMajor_val_three]
    show c.val = (c.val * 1 + 0) * 1 + 0
    omega
  show FloatOps.addf (FloatOps.divf (depthSum P0 (ix3 c r w)) (Scalar.ofBits .f32 0x41800000#32))
      ((broadcastTo S64x16x128 (shapeCast S64x1x1 P1 shapeCasts_S64_S64x1x1) broadcasts_S64x1x1_S64x16x128) (ix3 c r w)) = _
  rw [hb, depthSum_apply]
  rfl

/-- The channel maximum at (r, w): the fold of `max` from −∞ over the 64 logits of the tile pixel. -/
theorem chanMax_apply (r : Fin 16) (w : Fin 128) :
    chanMax P0 P1 (ix2 r w)
      = (Finset.univ : Finset (Fin 64)).fold max negInf (logit (N := 1) (H := 16) (W := 128) P0 P1 0 r w) := by
  refine (Ideal.multiReduction_maximumf_single (logits P0 P1) 0xFF800000#32 reduces_S64x16x128_S16x128 (.inl rfl) rfl (ix2 r w)).trans ?_
  have hf : (logits P0 P1 ∘ reduces_S64x16x128_S16x128.lift (ix2 r w)) = fun c : Fin 64 => logit (N := 1) (H := 16) (W := 128) P0 P1 0 r w c :=
    funext fun c => by
      show logits P0 P1 (reduces_S64x16x128_S16x128.lift (ix2 r w) c) = _
      rw [lift_chan r w c]; exact logits_apply P0 P1 _ r w
  rw [hf]
  rfl

/-- The broadcast tops at (c, r, w): the top of the tile pixel's logits. -/
theorem tops_apply (c : Fin 64) (r : Fin 16) (w : Fin 128) :
    tops P0 P1 (ix3 c r w) = top (logit (N := 1) (H := 16) (W := 128) P0 P1 0 r w) := by
  unfold tops
  refine (broadcastTo_apply _ _ (ix3 c r w) (ix3 (0 : Fin 1) r w) (fun a => match a with
    | ⟨0, _⟩ => by show 0 = (if (1 : Nat) = 1 then 0 else c.val); rw [if_pos rfl]
    | ⟨1, _⟩ => by show r.val = (if (16 : Nat) = 1 then 0 else r.val); rw [if_neg (by decide)]
    | ⟨2, _⟩ => by show w.val = (if (128 : Nat) = 1 then 0 else w.val); rw [if_neg (by decide)])).trans ?_
  refine (shapeCast_apply _ _ _ (ix2 r w) (by
    rw [Shape.rowMajor_val_two, Shape.rowMajor_val_three]
    show r.val * 128 + w.val = ((0 : Nat) * 16 + r.val) * 128 + w.val
    omega)).trans ?_
  show FloatOps.maximumf (Scalar.ofBits .f32 0xFF800000#32) (chanMax P0 P1 (ix2 r w)) = _
  rw [chanMax_apply]
  rfl

/-- The channel sum at (r, w): the sum of the tile pixel's weights. -/
theorem chanSum_apply (r : Fin 16) (w : Fin 128) :
    chanSum P0 P1 (ix2 r w) = ∑ c : Fin 64, weight (logit (N := 1) (H := 16) (W := 128) P0 P1 0 r w) c := by
  refine (Ideal.multiReduction_add_single (exp (subf (logits P0 P1) (tops P0 P1))) 0x00000000#32
    reduces_S64x16x128_S16x128 (.inl rfl) rfl (ix2 r w)).trans ?_
  refine Finset.sum_congr rfl fun c _ => ?_
  rw [lift_chan r w c]
  show FloatOps.exp (FloatOps.subf (logits P0 P1 (ix3 _ r w)) (tops P0 P1 (ix3 _ r w))) = _
  rw [logits_apply, tops_apply]
  rfl

/-! ## The block -/

/-- The block the body leaves, at (0, c, r, w), is `perPixel` of tile pixel (r, w)'s logits at channel c. -/
theorem block_apply (c : Fin 64) (r : Fin 16) (w : Fin 128) :
    E2 (F := Ideal) P0 P1 (ix4 (0 : Fin 1) c r w) = perPixel (logit (N := 1) (H := 16) (W := 128) P0 P1 0 r w) c := by
  have i0 : ix2_0 (ix4 (0 : Fin 1) c r w) = ix3 c r w :=
    funext fun a => Fin.ext (by match a with | ⟨0, _⟩ => rfl | ⟨1, _⟩ => rfl | ⟨2, _⟩ => rfl)
  have i1 : ix2_1 (ix4 (0 : Fin 1) c r w) = ix1 c :=
    funext fun a => Fin.ext (by match a with | ⟨0, _⟩ => rfl)
  have i2 : ix2_2 (ix4 (0 : Fin 1) c r w) = ix2 r w :=
    funext fun a => Fin.ext (by match a with | ⟨0, _⟩ => rfl | ⟨1, _⟩ => rfl)
  have i3 : ix2_3 (ix4 (0 : Fin 1) c r w) = ix2 r w :=
    funext fun a => Fin.ext (by match a with | ⟨0, _⟩ => rfl | ⟨1, _⟩ => rfl)
  show FloatOps.mulf (FloatOps.tanh (FloatOps.divf (FloatOps.exp (FloatOps.subf
      (FloatOps.addf (FloatOps.divf (depthSum P0 (ix2_0 (ix4 (0 : Fin 1) c r w))) (Scalar.ofBits .f32 0x41800000#32)) (P1 (ix2_1 (ix4 (0 : Fin 1) c r w))))
      (FloatOps.maximumf (Scalar.ofBits .f32 0xFF800000#32) (chanMax P0 P1 (ix2_2 (ix4 (0 : Fin 1) c r w))))))
      (chanSum P0 P1 (ix2_3 (ix4 (0 : Fin 1) c r w))))) (Scalar.ofBits .f32 0x40000000#32) = _
  rw [i0, i1, i2, i3, depthSum_apply, chanMax_apply, chanSum_apply]
  rfl

end Cert.KernelIdeal.BlockValue

end
-- ==== Proof.KernelArray.lean ====
/-
  The kernel's result array is `G` of its two arguments.

  The grid is 8 × 8: point t = (n, q) handles batch entry n and the rows 16 q … 16 q + 15. Its input block is the whole
  channel and depth extent over those rows, x[n, ·, ·, 16 q + r, w]; the bias block is the whole bias at every point; its
  output block is rows 16 q … 16 q + 15 of out[n, ·, ·, ·]. So the logits the body forms at tile pixel (r, w) are the
  array's logits at pixel (n, 16 q + r, w), and what the point writes back is its block of `G`. The 64 blocks tile the
  output array (the point covering (n, c, h, w) is (n, h / 16)), so the array ends at `G`.
-/
import proofs.«159681_j25056839205169_1_alg».proof.Proof.Gen.KernelIdeal.Value
import proofs.«159681_j25056839205169_1_alg».proof.Proof.KernelBlock
import proofs.«159681_j25056839205169_1_alg».proof.Proof.ChannelSoftmax
import Idealize.ShloMosaic.Lib.Pipeline.Value
import Idealize.ShloMosaic.Lib.ValueIdx

noncomputable section

namespace Cert.KernelIdeal.ArrayValue

open Cert.KernelIdeal Cert.KernelIdeal.Gen Cert.KernelIdeal.Value Cert.KernelIdeal.BlockValue Cert.ChannelSoftmax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point's block, over variables of the literal types -/

theorem zero5 : (![0, 0, 0, 0, 0] : Fin 5 → Nat) = fun _ => 0 := funext fun a => by fin_cases a <;> rfl
theorem zero1 : (![0] : Fin 1 → Nat) = fun _ => 0 := funext fun a => by fin_cases a <;> rfl

/-- What the body leaves of blocks `x0`, `x1`, at block index `y`, is `G` of arrays `X`, `B` at array index `i`, as soon
    as `i` has `y`'s channel, `x0`'s depth column over `y`'s tile pixel is `X`'s over `i`'s pixel, and `x1` is `B`. -/
theorem out_eq_G (X : S8x64x16x128x128.Idx → EReal) (B : S64.Idx → EReal)
    (x0 : Vec Ideal S1x64x16x16x128 .f32) (x1 : Vec Ideal S64 .f32) (y : S1x64x16x128.Idx) (i : S8x64x128x128.Idx)
    (hc : (i 1).val = (y 1).val)
    (hx : ∀ (c : Fin 64) (d : Fin 16), x0 (ix5 (0 : Fin 1) c d (y 2) (y 3)) = X (ix5 (i 0) c d (i 2) (i 3)))
    (hb : x1 = B) :
    out0_2 x0 x1 y = G X B i := by
  subst hb
  have hy : ix4 (0 : Fin 1) (y 1) (y 2) (y 3) = y := funext fun a => by
    match a with
    | ⟨0, _⟩ => exact Fin.ext (by have h0 : (y 0).val < 1 := (y 0).isLt; show 0 = (y 0).val; omega)
    | ⟨1, _⟩ => rfl
    | ⟨2, _⟩ => rfl
    | ⟨3, _⟩ => rfl
  have hi : ix4 (i 0) (y 1) (i 2) (i 3) = i := funext fun a => by
    match a with
    | ⟨0, _⟩ => rfl
    | ⟨1, _⟩ => exact Fin.ext hc.symm
    | ⟨2, _⟩ => rfl
    | ⟨3, _⟩ => rfl
  have hE : out0_2 x0 x1 y = E2 (F := Ideal) x0 x1 y := by
    unfold out0_2
    rw [canon2_eq, View.ld_unit_zero (S := S1x64x16x16x128) zero5, View.ld_unit_zero (S := S64) zero1]
  calc out0_2 x0 x1 y
      = E2 (F := Ideal) x0 x1 y := hE
    _ = E2 (F := Ideal) x0 x1 (ix4 (0 : Fin 1) (y 1) (y 2) (y 3)) := congrArg (E2 (F := Ideal) x0 x1) hy.symm
    _ = perPixel (logit (N := 1) (H := 16) (W := 128) x0 x1 0 (y 2) (y 3)) (y 1) := block_apply x0 x1 (y 1) (y 2) (y 3)
    _ = perPixel (logit (N := 8) (H := 128) (W := 128) X x1 (i 0) (i 2) (i 3)) (y 1) :=
        congrArg (fun L => perPixel L (y 1)) (logit_congr x0 X x1 0 (y 2) (y 3) (i 0) (i 2) (i 3) hx)
    _ = G X x1 (ix4 (i 0) (y 1) (i 2) (i 3)) := rfl
    _ = G X x1 i := congrArg (G X x1) hi

/-! ## The index maps over the grid -/

/-- The printed index maps, decided over the 64 points: the input window follows the output window on the batch and row
    axes and sits at block 0 on the channel, depth and column axes; the bias window sits at block 0; the output window
    sits at block 0 on the channel and column axes, its batch and row block indices below 8. -/
theorem index_facts : ∀ t : Fin cfg0.N,
    win0_0.index t (0 : Fin 5) = win0_2.index t (0 : Fin 4) ∧ win0_0.index t (1 : Fin 5) = 0 ∧ win0_0.index t (2 : Fin 5) = 0
    ∧ win0_0.index t (3 : Fin 5) = win0_2.index t (2 : Fin 4) ∧ win0_0.index t (4 : Fin 5) = 0
    ∧ win0_1.index t (0 : Fin 1) = 0
    ∧ win0_2.index t (1 : Fin 4) = 0 ∧ win0_2.index t (3 : Fin 4) = 0
    ∧ win0_2.index t (0 : Fin 4) ≤ 7 ∧ win0_2.index t (2 : Fin 4) ≤ 7 :=
  (by decide +kernel : ∀ t : Fin grid0.N, _)

/-- Every (batch entry, row block) pair is some point's. -/
theorem index_onto : ∀ (n : Fin 8) (q : Fin 8), ∃ t : Fin cfg0.N, win0_2.index t = ![n.val, 0, q.val, 0] :=
  (by decide +kernel : ∀ (n : Fin 8) (q : Fin 8), ∃ t : Fin grid0.N, win0_2.index t = ![n.val, 0, q.val, 0])

/-! ## What a point writes back -/

/-- Point `t` writes back block `t` of `G` of the argument arrays as the region finds them. -/
theorem flushed_eq (c : Dev nD) (t : Fin cfg0.N) :
    (dats m 0 c).flushed 2 t = ((cfg0.win 2).blk t).view.read (Elt Ideal) (G (V m c main_arg0) (V m c main_arg1)) := by
  rw [flushed2]
  obtain ⟨e00, e01, e02, e03, e04, e10, e21, e23, r20, r22⟩ := index_facts t
  funext j
  show out0_2 (iblk m c 0 t) (iblk m c 1 t) j = G (V m c main_arg0) (V m c main_arg1) (((cfg0.win 2).blk t).view.emb j)
  have hj0 : (j 0).val < 1 := (j 0).isLt
  have hj1 : (j 1).val < 64 := (j 1).isLt
  have hj2 : (j 2).val < 16 := (j 2).isLt
  have hj3 : (j 3).val < 128 := (j 3).isLt
  refine out_eq_G (V m c main_arg0) (V m c main_arg1) (iblk m c 0 t) (iblk m c 1 t) j (((cfg0.win 2).blk t).view.emb j) ?_ ?_ ?_
  · show win0_2.index t (1 : Fin 4) * 64 + 1 * (j 1).val = (j 1).val
    omega
  · intro cc d
    show V m c main_arg0 (((cfg0.win 0).blk t).view.emb (ix5 (0 : Fin 1) cc d (j 2) (j 3))) = V m c main_arg0 _
    refine congrArg (V m c main_arg0) (funext fun a => Fin.ext ?_)
    have hcc : cc.val < 64 := cc.isLt
    have hd : d.val < 16 := d.isLt
    match a with
    | ⟨0, _⟩ => show win0_0.index t (0 : Fin 5) * 1 + 1 * (0 : Nat) = win0_2.index t (0 : Fin 4) * 1 + 1 * (j 0).val; omega
    | ⟨1, _⟩ => show win0_0.index t (1 : Fin 5) * 64 + 1 * cc.val = cc.val; omega
    | ⟨2, _⟩ => show win0_0.index t (2 : Fin 5) * 16 + 1 * d.val = d.val; omega
    | ⟨3, _⟩ => show win0_0.index t (3 : Fin 5) * 16 + 1 * (j 2).val = win0_2.index t (2 : Fin 4) * 16 + 1 * (j 2).val; omega
    | ⟨4, _⟩ => show win0_0.index t (4 : Fin 5) * 128 + 1 * (j 3).val = win0_2.index t (3 : Fin 4) * 128 + 1 * (j 3).val; omega
  · funext k
    show V m c main_arg1 (((cfg0.win 1).blk t).view.emb k) = V m c main_arg1 k
    refine congrArg (V m c main_arg1) (funext fun a => Fin.ext ?_)
    match a with
    | ⟨0, _⟩ => show win0_1.index t (0 : Fin 1) * 64 + 1 * (k 0).val = (k 0).val; omega

/-! ## The blocks tile the array -/

/-- An index of the array is in point `t`'s block iff each coordinate is in the block's range on its axis. -/
theorem mem_block (t : Fin cfg0.N) (i : S8x64x128x128.Idx) :
    i ∈ ((cfg0.win 2).blk t).view.set ↔ ∀ a : Fin 4, win0_2.index t a * S1x64x16x128.size a ≤ (i a).val ∧ (i a).val < win0_2.index t a * S1x64x16x128.size a + S1x64x16x128.size a := by
  show i ∈ ((View.whole main_v0).slice (win0_2.rect t)).set ↔ _
  rw [View.set_slice_whole, Rect.mem_set_unit]
  exact Iff.rfl

/-- Every index of the output array is in the block of the point (its batch entry, its row over 16). -/
theorem covered (i : S8x64x128x128.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 128 := (i 2).isLt
  have hi3 : (i 3).val < 128 := (i 3).isLt
  obtain ⟨t, ht⟩ := index_onto ⟨(i 0).val, hi0⟩ ⟨(i 2).val / 16, by omega⟩
  have q0 : win0_2.index t (0 : Fin 4) = (i 0).val := congrFun ht 0
  have q1 : win0_2.index t (1 : Fin 4) = 0 := congrFun ht 1
  have q2 : win0_2.index t (2 : Fin 4) = (i 2).val / 16 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 16 ≤ (i 2).val ∧ (i 2).val < win0_2.index t (2 : Fin 4) * 16 + 16; omega
  | ⟨3, _⟩ => show win0_2.index t (3 : Fin 4) * 128 ≤ (i 3).val ∧ (i 3).val < win0_2.index t (3 : Fin 4) * 128 + 128; omega

/-! ## The array, and the run -/

/-- After the run the output array is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) covered

/-- The kernel's run with its result named: `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.lean ====
/-
  The certificate: a Pallas kernel for depth mean + bias + channel softmax + tanh + doubling against its jnp reference.

  For x[n, c, d, h, w] (8 × 64 × 16 × 128 × 128) and a bias b[c] both programs compute, over the extended reals,

      out[n, c, h, w] = 2 · tanh ( e c / Σ c', e c' ),   e c = exp (ℓ c − M),   ℓ c = (Σ d, x[n, c, d, h, w]) / 16 + b[c],
      M = max (−∞, max over c' of ℓ c')

  (ChannelSoftmax.lean: `G`). The reference computes it on whole arrays (ReferenceValue.lean: its run's result term is `G`
  of its arguments). The kernel computes it tile by tile on an 8 × 8 grid, each point taking every channel and depth of
  16 rows of one batch entry, so that the channel reductions stay inside one block (KernelBlock.lean: a block is
  `perPixel` of its own logits; KernelArray.lean: the blocks are blocks of `G` and tile the output). The two sides
  spell the same operations with the same literals, and a sum or a maximum over one axis does not depend on the order
  it is taken in, so no law that needs finite inputs is used: the precondition is never opened. The idealization
  rewrote nothing, so `preserves` is the empty conjunction.
-/
import proofs.«159681_j25056839205169_1_alg».proof.Defs
import proofs.«159681_j25056839205169_1_alg».proof.Proof.Gen.Kernel
import proofs.«159681_j25056839205169_1_alg».proof.Proof.Gen.Kernel.Skeleton
import proofs.«159681_j25056839205169_1_alg».proof.Proof.Gen.Kernel.Launch
import proofs.«159681_j25056839205169_1_alg».proof.Proof.Gen.Kernel.Points
import proofs.«159681_j25056839205169_1_alg».proof.Proof.Gen.Kernel.Frame
import proofs.«159681_j25056839205169_1_alg».proof.Proof.Gen.KernelIdeal
import proofs.«159681_j25056839205169_1_alg».proof.Proof.Gen.KernelIdeal.Skeleton
import proofs.«159681_j25056839205169_1_alg».proof.Proof.Gen.KernelIdeal.Launch
import proofs.«159681_j25056839205169_1_alg».proof.Proof.Gen.KernelIdeal.Points
import proofs.«159681_j25056839205169_1_alg».proof.Proof.Gen.KernelIdeal.Frame
import proofs.«159681_j25056839205169_1_alg».proof.Proof.Gen.ReferenceIdeal
import proofs.«159681_j25056839205169_1_alg».proof.Proof.Gen.KernelIdeal.Value
import proofs.«159681_j25056839205169_1_alg».proof.Proof.Gen.ReferenceIdeal.Run
import proofs.«159681_j25056839205169_1_alg».proof.Proof.Gen.ReferenceIdeal.Read
import proofs.«159681_j25056839205169_1_alg».proof.Proof.Gen.Pre_finite_inputs
import proofs.«159681_j25056839205169_1_alg».proof.Proof.ChannelSoftmax
import proofs.«159681_j25056839205169_1_alg».proof.Proof.ReferenceValue
import proofs.«159681_j25056839205169_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments, both programs end with their result array at `G` of the arguments. -/
theorem algebraic : Cert.algebraic_KernelIdeal_ReferenceIdeal := by
  intro m ρ m' ρ' _ hagree
  refine ⟨fun c => Cert.ChannelSoftmax.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
